-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S131072x64 .f32) (main_arg1 : FVec F S512x64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S131072x64 : Shape := ⟨2, ![131072, 64]⟩
abbrev S512x64 : Shape := ⟨2, ![512, 64]⟩
abbrev S131072x512 : Shape := ⟨2, ![131072, 512]⟩
abbrev S4096x64 : Shape := ⟨2, ![4096, 64]⟩
abbrev S4096x512 : Shape := ⟨2, ![4096, 512]⟩
abbrev S4096 : Shape := ⟨1, ![4096]⟩
abbrev S4096x1 : Shape := ⟨2, ![4096, 1]⟩
abbrev S512 : Shape := ⟨1, ![512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x512, .f32⟩
  | .local _ .vmem, ⟨0, _⟩ => ⟨S4096x64, .f32⟩
  | .local _ .vmem, ⟨1, _⟩ => ⟨S4096x64, .f32⟩
  | .local _ .vmem, ⟨2, _⟩ => ⟨S512x64, .f32⟩
  | .local _ .vmem, ⟨3, _⟩ => ⟨S4096x512, .f32⟩
  | .local _ .vmem, ⟨4, _⟩ => ⟨S4096x512, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  reduces_S4096x64_S4096 : S4096x64.Reduces [1] S4096
  shapeCasts_S4096_S4096x1 : S4096.ShapeCasts S4096x1
  reduces_S512x64_S512 : S512x64.Reduces [1] S512
  shapeCasts_S512_S1x512 : S512.ShapeCasts S1x512
  bitsLt_bf16_f32 : FTy.bits .bf16 < FTy.bits .f32
  broadcasts_S4096x1_S4096x512 : S4096x1.Broadcasts S4096x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x64_S512x64_S4096x512_1_1_0_0_n_n_wf : DotDims.WF S4096x64 S512x64 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩

abbrev nBuf : Space → Nat
  | .hbm => 18
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x64, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S131072x512, .f32⟩
  | .hbm, ⟨16, _⟩ => ⟨S131072x512, .f32⟩
  | .hbm, ⟨17, _⟩ => ⟨S131072x512, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  dot_S131072x64_S512x64_S131072x512_1_1_0_0_n_n_wf : DotDims.WF S131072x64 S512x64 S131072x512 [1] [1] [0] [0] [] []

variable [Facts₀]

def dot_S131072x64_S512x64_S131072x512_1_1_0_0_n_n : DotDims S131072x64 S512x64 S131072x512 where
  lhsContracting := [1]
  rhsContracting := [1]
  lhsNonContracting := [0]
  rhsNonContracting := [0]
  lhsBatch := []
  rhsBatch := []
  wf := dot_S131072x64_S512x64_S131072x512_1_1_0_0_n_n_wf

class Facts : Prop extends Facts₀ where

variable [Facts]
-- ==== Proof.SqDist.lean ====
/-
  The squared Euclidean distance between every row of one matrix and every row of another, in its expanded form.

  For `x` of 131072 rows and `w` of 512 rows, both of 64 columns, entry `(b, u)` of the result is
  `(‖x_b‖² + ‖w_u‖²) - 2 · ⟨x_b, w_u⟩`: the sum of the squares of row `b` of `x`, plus the sum of the squares of
  row `u` of `w`, minus twice the inner product of the two rows. The three sums run over the 64 columns; the
  factor two is kept as the float pattern both programs write for it, so it is never evaluated. On the extended
  reals the order in which the 64 terms of a sum are added does not matter, so a program that sums a row on the
  vector unit, one that sums it on the host, a block matrix product into a zero accumulator and a host matrix
  product all read as these sums.
-/
import Idealize.ShloMosaic.PureOps.Ideal
import Idealize.ShloMosaic.Lib.ValueIdx

noncomputable section

open scoped BigOperators

namespace Cert.SqDist

open Idealize.ShloMosaic Idealize.ShloMosaic.ValueIdx

/-- Entry `(b, u)` from row `b` of the left matrix and row `u` of the right one, whatever the numbers of rows. -/
def entry {M N : Nat} (x : (⟨2, ![M, 64]⟩ : Shape).Idx → EReal) (w : (⟨2, ![N, 64]⟩ : Shape).Idx → EReal)
    (b : Fin M) (u : Fin N) : EReal :=
  ((∑ k : Fin 64, x (ix2 b k) * x (ix2 b k)) + (∑ k : Fin 64, w (ix2 u k) * w (ix2 u k)))
    - Ideal.ofBits .f32 0x40000000#32 * ∑ k : Fin 64, x (ix2 b k) * w (ix2 u k)

/-- The whole table of distances. -/
def table (x : (⟨2, ![131072, 64]⟩ : Shape).Idx → EReal) (w : (⟨2, ![512, 64]⟩ : Shape).Idx → EReal) :
    (⟨2, ![131072, 512]⟩ : Shape).Idx → EReal :=
  fun i => entry x w (i 0) (i 1)

/-- An entry depends on the two matrices only through the one row of each that it names: matrices of any heights that
    agree on those rows give the same entry. This is what lets a block of 4096 rows stand for the whole left matrix. -/
theorem entry_congr {M M' N N' : Nat} (x : (⟨2, ![M, 64]⟩ : Shape).Idx → EReal) (x' : (⟨2, ![M', 64]⟩ : Shape).Idx → EReal)
    (w : (⟨2, ![N, 64]⟩ : Shape).Idx → EReal) (w' : (⟨2, ![N', 64]⟩ : Shape).Idx → EReal)
    (b : Fin M) (b' : Fin M') (u : Fin N) (u' : Fin N')
    (hx : ∀ k : Fin 64, x (ix2 b k) = x' (ix2 b' k)) (hw : ∀ k : Fin 64, w (ix2 u k) = w' (ix2 u' k)) :
    entry x w b u = entry x' w' b' u' := by
  unfold entry
  simp only [hx, hw]

end Cert.SqDist

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibRowSum.lean ====
/-
  A reduction of a matrix along its second axis, read at a row.

  A `vector.multi_reduction <add>` of an `[a, b]` array over axis 1 into an `[a]` array holds, at `r`, the sum of row
  `r`: the index the reduction inserts at position `k` of the reduced axis under the kept index `r` is `(r, k)`. Stated
  with the coordinate constructors `ix1` / `ix2`, at any extents, over the extended reals.
-/
import Idealize.ShloMosaic.PureOps.Ideal.Laws
import Idealize.ShloMosaic.Lib.ValueIdx

noncomputable section

open scoped BigOperators

namespace Cert.Lib.RowSum

open Idealize.ShloMosaic Idealize.ShloMosaic.ValueIdx

/-- The sum over the second axis, at row `r`, is `∑ k, src (r, k)`. -/
theorem multiReduction_add_row_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  refine Finset.sum_congr rfl fun k _ => congrArg src (funext fun d => Fin.ext ?_)
  match d with
  | ⟨0, _⟩ => rfl
  | ⟨1, _⟩ => rfl

end Cert.Lib.RowSum

end
-- ==== Proof.LibDotNT.lean ====
/-
  A product of a matrix with a transposed matrix, read at an entry as the textbook sum.

  A product of an `M × K` matrix `A` by an `N × K` matrix `B` whose dimension numbers contract the LAST axis of both
  operands, keep the left rows and the right rows in that order, and have no batch axis: the product `A · Bᵀ`. At
  result entry `(i, j)` and contraction position `k` the left operand is read at `(i, k)` and the right at `(j, k)`,
  and the one-axis contraction index set is its coordinate range `Fin K`; so the sum over the contraction index is
  `∑ q : Fin K, A (i, q) * B (j, q)`. Stated for ANY dimension-number record with those lists and for operands of any
  two float formats, at the extended reals, for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat} (d : DotDims (⟨2, ![M, K]⟩ : Shape) (⟨2, ![N, K]⟩ : Shape) (⟨2, ![M, N]⟩ : Shape))
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the number of columns of both operands. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's row is the result's column. -/
theorem rhs_row (i : Fin M) (j : Fin N) (k : d.contr.Idx) : (d.rhsIdx (ix2 i j) k 0).val = j.val := by
  obtain ⟨lc, rc, ln, rn, lb, rb, wf⟩ := d
  subst hlc hrc hln hrn hlb hrb
  rfl

/-- THE CONTRACTION'S SUM OF `A · Bᵀ` at entry `(i, j)`: at contraction position `k` with coordinate `q` the left
    operand is read at `(i, q)` and the right at `(j, q)`, and the positions correspond one to one to the coordinates
    `q : Fin K`, so the sum is re-indexed by them. -/
theorem nt_sum (l : (⟨2, ![M, K]⟩ : Shape).Idx → EReal) (r : (⟨2, ![N, K]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 j q) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 j (contrEquiv1 d K h1 hK k) := by
    intro k
    funext a
    refine Fin.ext ?_
    match a with
    | ⟨0, _⟩ => exact rhs_row d hlc hrc hln hrn hlb hrb i j k
    | ⟨1, _⟩ => exact d.rhsIdx_val_of_single hrc (ix2 i j) k
  calc (∑ k : d.contr.Idx, l (d.lhsIdx (ix2 i j) k) * r (d.rhsIdx (ix2 i j) k))
      = ∑ k : d.contr.Idx, (fun q : Fin K => l (ix2 i q) * r (ix2 j q)) (contrEquiv1 d K h1 hK k) :=
        Finset.sum_congr rfl fun k _ => by rw [hl k, hr k]
    _ = ∑ q : Fin K, l (ix2 i q) * r (ix2 j q) :=
        Equiv.sum_comp (contrEquiv1 d K h1 hK) fun q : Fin K => l (ix2 i q) * r (ix2 j q)

/-- A block product `A · Bᵀ` into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    matmul d prec l r (constant (⟨2, ![M, N]⟩ : Shape) .f32 0x00000000#32) (ix2 i j)
      = ∑ q : Fin K, l (ix2 i q) * r (ix2 j q) := by
  show FloatOps.matmul d prec l r (constant (⟨2, ![M, N]⟩ : Shape) .f32 0x00000000#32) (ix2 i j) = _
  rw [Ideal.matmul_constant_zero_apply]
  exact nt_sum d hlc hrc hln hrn hlb hrb l r i j

/-- The host's product `A · Bᵀ`, read at `(i, j)`, is that sum. -/
theorem hostDot_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    Host.dotGeneral d prec l r (ix2 i j) = ∑ q : Fin K, l (ix2 i q) * r (ix2 j q) := by
  simp only [Host.dotGeneral]
  rw [Ideal.dotGeneral_apply]
  exact nt_sum d hlc hrc hln hrn hlb hrb l r i j

end Cert.LibDotNT

end
-- ==== Proof.DistPayload.lean ====
/-
  What the kernel body computes from its two loaded blocks.

  The body loads a block `xb` of 4096 rows of `x` and the whole of `w`, and stores one value: the column of the row
  sums of `xb·xb` broadcast along the rows, plus the row of the row sums of `w·w` broadcast down the columns, minus the
  constant two times the block product `xb · wᵀ` into a zero accumulator (the operands narrowed to a shorter float
  format first, which changes nothing on the extended reals). Read at entry `(p, q)` that is the specification's
  entry for row `p` of the block and row `q` of `w`.
-/
import proofs.«125234_j37941741092924_1_alg».proof.Proof.Gen.KernelIdeal.Skeleton
import proofs.«125234_j37941741092924_1_alg».proof.Proof.SqDist
import proofs.«125234_j37941741092924_1_alg».proof.Proof.LibKeepdims
import proofs.«125234_j37941741092924_1_alg».proof.Proof.LibRowSum
import proofs.«125234_j37941741092924_1_alg».proof.Proof.LibDotNT
import Idealize.ShloMosaic.Lib.ValueLayout

noncomputable section

open scoped BigOperators

namespace Cert.KernelIdeal.DistPayload

open Cert.KernelIdeal Cert.KernelIdeal.Gen Idealize.ShloMosaic Idealize.ShloMosaic.ValueIdx

/-- THE STORED VALUE AT AN ENTRY: the specification's entry of the loaded block and of `w`. -/
theorem pay_apply (xb : Vec Ideal S4096x64 .f32) (wv : Vec Ideal S512x64 .f32) (p : Fin 4096) (q : Fin 512) :
    k0_pay1 (F := Ideal) xb wv (ix2 p q) = Cert.SqDist.entry xb wv p q := by
  unfold k0_pay1 Cert.SqDist.entry
  dsimp only
  rw [subf_apply, addf_apply, mulf_apply, broadcast_apply]
  refine congrArg₂ (· - ·) (congrArg₂ (· + ·) ?_ ?_) (congrArg₂ (· * ·) rfl ?_)
  · -- the column of row sums of the block, broadcast along row `p`
    exact (Cert.Lib.Keepdims.broadcastTo_a1_ab_apply _ _ p q).trans
      ((Cert.Lib.Keepdims.shapeCast_a_a1_apply _ _ p 0).trans
        (Cert.Lib.RowSum.multiReduction_add_row_apply (mulf xb xb) _ _ _ _ p))
  · -- the row of row sums of `w`, broadcast down column `q`
    exact (broadcastTo_1b_ab_apply _ _ p q).trans
      ((shapeCast_a_1a_apply _ _ 0 q).trans
        (Cert.Lib.RowSum.multiReduction_add_row_apply (mulf wv wv) _ _ _ _ q))
  · -- the block product of the block with the transpose of `w`
    exact Cert.LibDotNT.matmul_zero_apply _ rfl rfl rfl rfl rfl rfl none _ _ p q

end Cert.KernelIdeal.DistPayload

end
-- ==== Proof.KernelDist.lean ====
/-
  The kernel's output array after the run is the table of squared distances.

  The grid has 32 points. Point `t` is given rows `4096·t … 4096·t + 4095` of `x` and the whole of `w`, and writes back
  rows `4096·t … 4096·t + 4095` of the output, all 512 columns. Entry `(p, q)` of what it writes is the
  specification's entry of row `p` of its block of `x` and row `q` of `w`; row `p` of the block is row `4096·t + p` of
  `x`, so this is entry `(4096·t + p, q)` of the table. Every row of the output lies in exactly one such block (row `r`
  in the block of point `r / 4096`), so the array ends as the table.
-/
import proofs.«125234_j37941741092924_1_alg».proof.Proof.Gen.KernelIdeal.Value
import proofs.«125234_j37941741092924_1_alg».proof.Proof.DistPayload

noncomputable section

open scoped BigOperators

namespace Cert.KernelIdeal.DistValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store all start at the origin of their buffers. -/
theorem origin_zero : (![0, 0] : Fin 2 → Nat) = fun _ => 0 := funext fun a => by fin_cases a <;> rfl

/-- The three index maps over the 32 points: the block of `x` moves with the output block along the rows, the block
    of `w` stays at the origin, no block moves along the columns, and the output's row block at point `t` is `t`. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 31 :=
  (by decide +kernel : ∀ t : Fin grid0.N, _)

/-- Every row block of the output is some point's. -/
theorem idx_onto : ∀ r : Fin 32, ∃ t : Fin cfg0.N, win0_2.index t = ![r.val, 0] :=
  (by decide +kernel : ∀ r : Fin 32, ∃ t : Fin grid0.N, win0_2.index t = ![r.val, 0])

/-- WHAT POINT `t` WRITES BACK is block `t` of the table of the argument arrays. -/
theorem flushed_eq (c : Dev nD) (t : Fin cfg0.N) :
    (dats m 0 c).flushed 2 t
      = ((cfg0.win 2).blk t).view.read (Elt Ideal) (Cert.SqDist.table (V m c main_arg0) (V m c main_arg1)) := by
  rw [Value.flushed2]
  unfold out0_2
  rw [View.canon_unit_zero origin_zero]
  simp only [View.ld_unit_zero (S := S4096x64) origin_zero, View.ld_unit_zero (S := S512x64) origin_zero]
  obtain ⟨e0, e1, e2, e3, e4, -⟩ := idx_facts t
  refine funext fun (j : S4096x512.Idx) => ?_
  obtain ⟨p, q, rfl⟩ : ∃ (p : Fin 4096) (q : Fin 512), j = ix2 p q := ⟨j 0, j 1, eq_ix2 j⟩
  show k0_pay1 (iblk m c 0 t) (iblk m c 1 t) (ix2 p q)
    = Cert.SqDist.entry (V m c main_arg0) (V m c main_arg1) ((((cfg0.win 2).blk t).view.emb (ix2 p q)) 0) ((((cfg0.win 2).blk t).view.emb (ix2 p q)) 1)
  refine (Cert.KernelIdeal.DistPayload.pay_apply (iblk m c 0 t) (iblk m c 1 t) p q).trans ?_
  refine Cert.SqDist.entry_congr _ _ _ _ _ _ _ _ (fun k => ?_) (fun k => ?_)
  · -- row `p` of the block of `x` is row `4096·t + p` of `x`
    show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 4096 + 1 * p.val = win0_2.index t (0 : Fin 2) * 4096 + 1 * p.val
      omega
    | ⟨1, _⟩ =>
      show win0_0.index t (1 : Fin 2) * 64 + 1 * k.val = k.val
      omega
  · -- row `q` of the block of `w` is row `q` of `w`
    show V m c main_arg1 (((cfg0.win 1).blk t).view.emb (ix2 q k)) = V m c main_arg1 _
    refine congrArg (V m c main_arg1) (funext fun a => Fin.ext ?_)
    match a with
    | ⟨0, _⟩ =>
      show win0_1.index t (0 : Fin 2) * 512 + 1 * q.val = win0_2.index t (1 : Fin 2) * 512 + 1 * q.val
      omega
    | ⟨1, _⟩ =>
      show win0_1.index t (1 : Fin 2) * 64 + 1 * k.val = k.val
      omega

/-- An index of the output is in point `t`'s block iff each coordinate is in the block's range on its axis. -/
theorem mem_blk (t : Fin cfg0.N) (i : S131072x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v0).slice (win0_2.rect t)).set ↔ _
  rw [View.set_slice_whole, Rect.mem_set_unit]
  exact Iff.rfl

/-- THE BLOCKS COVER THE OUTPUT: row `r` is in the block of the point whose row block is `r / 4096`. -/
theorem cover (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  obtain ⟨t, ht⟩ := idx_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 512 ≤ (i 1).val ∧ (i 1).val < win0_2.index t (1 : Fin 2) * 512 + 512
    omega

/-- THE OUTPUT ARRAY after the run is the table of the argument arrays as launched. -/
theorem final (c : Dev nD) :
    (dats m 0 c).arrAt 2 cfg0.N
      = Cert.SqDist.table (m ((c : Thread nD τ).loc main_arg0)) (m ((c : Thread nD τ).loc main_arg1)) :=
  (dats m 0 c).arrAt_eq_of_cover 2 _ (fun t _ => flushed_eq m c t) cover

/-- The kernel's run, read: the output array ends as the table, the arguments unchanged. -/
theorem run : θ_run defs (onTc (τ := τ) (main (F := Ideal))) ⟨m, fun _ => 0, ρ⟩ fun r => ∀ c : Dev nD,
      r.2.mem ((c : Thread nD τ).loc main_v0)
        = Cert.SqDist.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.DistValue

end
-- ==== Proof.RefDist.lean ====
/-
  The reference program computes the table of squared distances.

  Read one operation at a time, entry `(b, u)` of the reference's result is
  `(0 + ∑ₖ x(b,k)·x(b,k)) + (0 + ∑ₖ w(u,k)·w(u,k))`, each row sum kept as a column or a row and broadcast over the
  table, minus the constant two times the host matrix product `∑ₖ x(b,k)·w(u,k)`. The initial value `0` of each host
  sum is absorbed, and what is left is the specification's entry.
-/
import proofs.«125234_j37941741092924_1_alg».proof.Proof.Gen.ReferenceIdeal.Read
import proofs.«125234_j37941741092924_1_alg».proof.Proof.SqDist

noncomputable section

open scoped BigOperators

namespace Cert.ReferenceIdeal.DistValue

open Cert.ReferenceIdeal Cert.ReferenceIdeal.Gen Cert.ReferenceIdeal.Read Idealize.ShloMosaic Idealize.ShloMosaic.ValueIdx

/-- The column of `x` that the row sum of `x·x` reads at step `k`, once the sum has been broadcast to entry `i`. -/
theorem row_of_x (i : S131072x512.Idx) (k : Fin 64) :
    idx_main_v1 (idx_main_v2 (idx_main_v7 i)) k = ix2 (i 0) k :=
  funext fun a => Fin.ext (by match a with | ⟨0, _⟩ => rfl | ⟨1, _⟩ => rfl)

/-- The column of `w` that the row sum of `w·w` reads at step `k`, once the sum has been broadcast to entry `i`. -/
theorem row_of_w (i : S131072x512.Idx) (k : Fin 64) :
    idx_main_v4 (idx_main_v5 (idx_main_v8 i)) k = ix2 (i 1) k :=
  funext fun a => Fin.ext (by match a with | ⟨0, _⟩ => rfl | ⟨1, _⟩ => rfl)

/-- The matrix product reads row `i 0` of `x` … -/
theorem dot_left (i : S131072x512.Idx) (k : Fin 64) : lidx_main_v6 i k = ix2 (i 0) k :=
  funext fun a => Fin.ext (by match a with | ⟨0, _⟩ => rfl | ⟨1, _⟩ => rfl)

/-- … against row `i 1` of `w`. -/
theorem dot_right (i : S131072x512.Idx) (k : Fin 64) : ridx_main_v6 i k = ix2 (i 1) k :=
  funext fun a => Fin.ext (by match a with | ⟨0, _⟩ => rfl | ⟨1, _⟩ => rfl)

/-- THE REFERENCE'S RESULT IS THE TABLE: at every entry the composed stages are the specification's three sums. -/
theorem result_eq (x : (⟨S131072x64, .f32⟩ : BufTy).Contents (Elt Ideal)) (w : (⟨S512x64, .f32⟩ : BufTy).Contents (Elt Ideal)) :
    val_main_v12 (F := Ideal) x w = Cert.SqDist.table x w := by
  funext i
  rw [val_main_v12_apply, val_main_v9_apply, val_main_v11_apply, val_main_v7_apply, val_main_v2_apply, val_main_v1_apply,
    val_main_v8_apply, val_main_v5_apply, val_main_v4_apply, val_main_v10_apply, val_main_v6_apply]
  simp only [val_main_v0_apply, val_main_v3_apply, val_main_cst_apply, val_main_cst_0_apply, val_main_cst_1_apply,
    row_of_x, row_of_w, dot_left, dot_right]
  unfold Cert.SqDist.table Cert.SqDist.entry
  show (Ideal.ofBits .f32 0x00000000#32 + _ + (Ideal.ofBits .f32 0x00000000#32 + _)) - Ideal.ofBits .f32 0x40000000#32 * _ = _
  rw [Ideal.ofBits_zero_f32, zero_add, zero_add]
  rfl

end Cert.ReferenceIdeal.DistValue

end
-- ==== Proof.lean ====
/-
  The kernel computes the table of squared Euclidean distances between the 131072 rows of `x` and the 512 rows of
  `w` (64 columns each) in the expanded form `(‖x_b‖² + ‖w_u‖²) - 2·⟨x_b, w_u⟩`, one block of 4096 rows of `x` per grid
  point: the two row sums on the vector unit, the inner products as a block product with the transpose of `w` into a
  zero accumulator (its operands narrowed to a shorter float format, which is the identity on the extended reals). The
  reference computes the same expression on the host: two host row sums from the initial value zero, broadcast over the
  table, and one host matrix product. On the extended reals each of the three sums is the same sum of 64 terms on both
  sides and the constant two is the same float pattern, so both results are the one table `Cert.SqDist.table`
  (Proof/SqDist.lean): the reference's by reading its operations one at a time (Proof/RefDist.lean), the kernel's by
  reading the stored value at an entry (Proof/DistPayload.lean) and then laying the 32 blocks over the output array
  (Proof/KernelDist.lean). No finiteness of the inputs is used: nothing is cancelled or distributed. The idealized
  kernel is the kernel's own text, so there is nothing to preserve; the three frames are the generated ones (the
  reference's is its run with the result dropped).
-/
import proofs.«125234_j37941741092924_1_alg».proof.Defs
import proofs.«125234_j37941741092924_1_alg».proof.Proof.Gen.Kernel
import proofs.«125234_j37941741092924_1_alg».proof.Proof.Gen.Kernel.Frame
import proofs.«125234_j37941741092924_1_alg».proof.Proof.Gen.KernelIdeal
import proofs.«125234_j37941741092924_1_alg».proof.Proof.Gen.KernelIdeal.Frame
import proofs.«125234_j37941741092924_1_alg».proof.Proof.Gen.ReferenceIdeal
import proofs.«125234_j37941741092924_1_alg».proof.Proof.Gen.ReferenceIdeal.Run
import proofs.«125234_j37941741092924_1_alg».proof.Proof.Gen.Pre_finite_inputs
import proofs.«125234_j37941741092924_1_alg».proof.Proof.KernelDist
import proofs.«125234_j37941741092924_1_alg».proof.Proof.RefDist
import Idealize.ShloMosaic.Adequacy
import Idealize.ShloMosaic.Init

noncomputable section

namespace Cert.Proof

open Idealize.ShloMosaic Idealize.ShloMosaic.TcCoe Idealize.SL.Sem

/-- The kernel, word by word, runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on `x` and `w`, both programs end with the table of squared distances of `x` and `w`. -/
theorem algebraic : Cert.algebraic_KernelIdeal_ReferenceIdeal := by
  intro m ρ m' ρ' _ hagree
  refine ⟨fun c => Cert.SqDist.table (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.DistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.DistValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
